-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S1677722 : Shape := ⟨1, ![1677722]⟩
abbrev S2048 : Shape := ⟨1, ![2048]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S1677722 : S_.BroadcastsInDim S1677722 (![] : Fin 0 → Fin S1677722.rank)
  reducesTo_S1677722_S_d0 : S1677722.ReducesTo [0] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8x2048x4096 .f32) (main_arg1 : FVec F S1677722 .f32) (main_arg2 : FVec F S2048 .f32) (main_arg3 : IVec S1677722 32) (main_arg4 : IVec S1677722 32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S1677722 .f32 := Host.absf main_arg1
  let main_cst_0 : FVec F S_ .f32 := constant S_ .f32 0x7F800000#32
  let main_v5 : FVec F S1677722 .f32 := broadcastInDim S1677722 ![] bcast_S_S1677722 main_cst_0
  let main_v6 : IVec S1677722 1 := cmpf .olt main_v4 main_v5
  let main_c_1 : IVec S_ 1 := constantI S_ 1 1#1
  let main_v7 : IVec S_ 1 := (fun x v => Host.reduce IntOp.andi x v reducesTo_S1677722_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8x2048x4096 : Shape := ⟨3, ![8, 2048, 4096]⟩
abbrev S1677722 : Shape := ⟨1, ![1677722]⟩
abbrev S2048 : Shape := ⟨1, ![2048]⟩
abbrev S_ : Shape := ⟨0, ![]⟩
abbrev S4096x4096 : Shape := ⟨2, ![4096, 4096]⟩
abbrev S1677722x1 : Shape := ⟨2, ![1677722, 1]⟩
abbrev S1677722x2 : Shape := ⟨2, ![1677722, 2]⟩
abbrev S1x2048 : Shape := ⟨2, ![1, 2048]⟩
abbrev S8x4096x2048 : Shape := ⟨3, ![8, 4096, 2048]⟩
abbrev S256x4096 : Shape := ⟨2, ![256, 4096]⟩
abbrev S1x512x4096 : Shape := ⟨3, ![1, 512, 4096]⟩
abbrev S1x512 : Shape := ⟨2, ![1, 512]⟩
abbrev S1x256x512 : Shape := ⟨3, ![1, 256, 512]⟩
abbrev S512x4096 : Shape := ⟨2, ![512, 4096]⟩
abbrev S256x512 : Shape := ⟨2, ![256, 512]⟩
abbrev S512 : Shape := ⟨1, ![512]⟩

abbrev nBuf : Space → Nat
  | .hbm => 27
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S1677722, .f32⟩
  | .hbm, ⟨2, _⟩ => ⟨S2048, .f32⟩
  | .hbm, ⟨3, _⟩ => ⟨S1677722, .i32⟩
  | .hbm, ⟨4, _⟩ => ⟨S1677722, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1677722, .i32⟩
  | .hbm, ⟨9, _⟩ => ⟨S1677722, .i1⟩
  | .hbm, ⟨10, _⟩ => ⟨S_, .i32⟩
  | .hbm, ⟨11, _⟩ => ⟨S1677722, .i32⟩
  | .hbm, ⟨12, _⟩ => ⟨S1677722, .i32⟩
  | .hbm, ⟨13, _⟩ => ⟨S1677722, .i32⟩
  | .hbm, ⟨14, _⟩ => ⟨S_, .i32⟩
  | .hbm, ⟨15, _⟩ => ⟨S1677722, .i32⟩
  | .hbm, ⟨16, _⟩ => ⟨S1677722, .i1⟩
  | .hbm, ⟨17, _⟩ => ⟨S_, .i32⟩
  | .hbm, ⟨18, _⟩ => ⟨S1677722, .i32⟩
  | .hbm, ⟨19, _⟩ => ⟨S1677722, .i32⟩
  | .hbm, ⟨20, _⟩ => ⟨S1677722, .i32⟩
  | .hbm, ⟨21, _⟩ => ⟨S1677722x1, .i32⟩
  | .hbm, ⟨22, _⟩ => ⟨S1677722x1, .i32⟩
  | .hbm, ⟨23, _⟩ => ⟨S1677722x2, .i32⟩
  | .hbm, ⟨24, _⟩ => ⟨S4096x4096, .f32⟩
  | .hbm, ⟨25, _⟩ => ⟨S1x2048, .f32⟩
  | .hbm, ⟨26, _⟩ => ⟨S8x4096x2048, .f32⟩
  | .local _ .vmem, ⟨0, _⟩ => ⟨S256x4096, .f32⟩
  | .local _ .vmem, ⟨1, _⟩ => ⟨S256x4096, .f32⟩
  | .local _ .vmem, ⟨2, _⟩ => ⟨S1x512x4096, .f32⟩
  | .local _ .vmem, ⟨3, _⟩ => ⟨S1x512x4096, .f32⟩
  | .local _ .vmem, ⟨4, _⟩ => ⟨S1x512, .f32⟩
  | .local _ .vmem, ⟨5, _⟩ => ⟨S1x512, .f32⟩
  | .local _ .vmem, ⟨6, _⟩ => ⟨S1x256x512, .f32⟩
  | .local _ .vmem, ⟨7, _⟩ => ⟨S1x256x512, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  bcast_S_S4096x4096 : S_.BroadcastsInDim S4096x4096 (![] : Fin 0 → Fin S4096x4096.rank)
  bcast_S_S1677722 : S_.BroadcastsInDim S1677722 (![] : Fin 0 → Fin S1677722.rank)
  bcast_S1677722_S1677722x1_0 : S1677722.BroadcastsInDim S1677722x1 (![0] : Fin 1 → Fin S1677722x1.rank)
  concatenates_S1677722x1_S1677722x1_S1677722x2_d1 : Shape.Concatenates [S1677722x1, S1677722x1] S1677722x2 1
  shapeCasts_S2048_S1x2048 : S2048.ShapeCasts S1x2048
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x512_S1x512_0_0 : ∀ a, (![0, 0] : Fin 2 → Nat) a + S1x512.size a ≤ S1x512.size a
  h_S1x512 : 0 < S1x512.numel
  shapeCasts_S1x512_S512 : S1x512.ShapeCasts S512
  shapeCasts_S512_S1x512 : S512.ShapeCasts S1x512
  shapeCasts_S1x512_S1x512 : S1x512.ShapeCasts S1x512
  broadcasts_S1x512_S256x512 : S1x512.Broadcasts S256x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  scatter_S4096x4096_S1677722x2_S1677722_n_01_01_1_wf : ScatterDims.WF S4096x4096 S1677722x2 S1677722 [] [0, 1] [0, 1] 1
  dot_S256x4096_S512x4096_S256x512_1_1_0_0_n_n_wf : DotDims.WF S256x4096 S512x4096 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S8x2048x4096.size a
  hwx0_1 : ∀ i : grid0.Coords, EltTy.bits .f32 = 32 ∨ (Rect.block (s := S8x2048x4096) S1x512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x512.size a ≤ S8x4096x2048.size a
  hwx0_3 : ∀ i : grid0.Coords, EltTy.bits .f32 = 32 ∨ (Rect.block (s := S8x4096x2048) S1x256x512.size (cc0_transform_3 i) (hinb0_3 i)).WholeWords (EltTy.packing .f32)

variable [Facts₀]

def scatter_S4096x4096_S1677722x2_S1677722_n_01_01_1 : ScatterDims S4096x4096 S1677722x2 S1677722 where
  updateWindowDims := []
  insertedWindowDims := [0, 1]
  scatterDimsToOperandDims := [0, 1]
  indexVectorDim := 1
  wf := scatter_S4096x4096_S1677722x2_S1677722_n_01_01_1_wf
def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf

abbrev win0_0 : Pipeline.Window sig grid0 :=
  Pipeline.Window.ofSpec (Memref.whole main_v14) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S1677722 : Shape := ⟨1, ![1677722]⟩
abbrev S2048 : Shape := ⟨1, ![2048]⟩
abbrev S_ : Shape := ⟨0, ![]⟩
abbrev S4096x4096 : Shape := ⟨2, ![4096, 4096]⟩
abbrev S1677722x1 : Shape := ⟨2, ![1677722, 1]⟩
abbrev S1677722x2 : Shape := ⟨2, ![1677722, 2]⟩
abbrev S8x4096x2048 : Shape := ⟨3, ![8, 4096, 2048]⟩
abbrev S1x1x2048 : Shape := ⟨3, ![1, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S1677722, .f32⟩
  | .hbm, ⟨2, _⟩ => ⟨S2048, .f32⟩
  | .hbm, ⟨3, _⟩ => ⟨S1677722, .i32⟩
  | .hbm, ⟨4, _⟩ => ⟨S1677722, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1677722, .i32⟩
  | .hbm, ⟨9, _⟩ => ⟨S1677722, .i1⟩
  | .hbm, ⟨10, _⟩ => ⟨S_, .i32⟩
  | .hbm, ⟨11, _⟩ => ⟨S1677722, .i32⟩
  | .hbm, ⟨12, _⟩ => ⟨S1677722, .i32⟩
  | .hbm, ⟨13, _⟩ => ⟨S1677722, .i32⟩
  | .hbm, ⟨14, _⟩ => ⟨S_, .i32⟩
  | .hbm, ⟨15, _⟩ => ⟨S1677722, .i32⟩
  | .hbm, ⟨16, _⟩ => ⟨S1677722, .i1⟩
  | .hbm, ⟨17, _⟩ => ⟨S_, .i32⟩
  | .hbm, ⟨18, _⟩ => ⟨S1677722, .i32⟩
  | .hbm, ⟨19, _⟩ => ⟨S1677722, .i32⟩
  | .hbm, ⟨20, _⟩ => ⟨S1677722, .i32⟩
  | .hbm, ⟨21, _⟩ => ⟨S1677722x1, .i32⟩
  | .hbm, ⟨22, _⟩ => ⟨S1677722x1, .i32⟩
  | .hbm, ⟨23, _⟩ => ⟨S1677722x2, .i32⟩
  | .hbm, ⟨24, _⟩ => ⟨S4096x4096, .f32⟩
  | .hbm, ⟨25, _⟩ => ⟨S8x2048x4096, .f32⟩
  | .hbm, ⟨26, _⟩ => ⟨S8x4096x2048, .f32⟩
  | .hbm, ⟨27, _⟩ => ⟨S1x1x2048, .f32⟩
  | .hbm, ⟨28, _⟩ => ⟨S8x4096x2048, .f32⟩
  | .hbm, ⟨29, _⟩ => ⟨S8x4096x2048, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S1677722 : S_.BroadcastsInDim S1677722 (![] : Fin 0 → Fin S1677722.rank)
  bcast_S1677722_S1677722x1_0 : S1677722.BroadcastsInDim S1677722x1 (![0] : Fin 1 → Fin S1677722x1.rank)
  concatenates_S1677722x1_S1677722x1_S1677722x2_d1 : Shape.Concatenates [S1677722x1, S1677722x1] S1677722x2 1
  transposes_S8x2048x4096_S8x4096x2048_0_2_1 : S8x2048x4096.Transposes [0, 2, 1] S8x4096x2048
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  scatter_S4096x4096_S1677722x2_S1677722_n_01_01_1_wf : ScatterDims.WF S4096x4096 S1677722x2 S1677722 [] [0, 1] [0, 1] 1
  dot_S8x2048x4096_S4096x4096_S8x2048x4096_2_1_01_0_n_n_wf : DotDims.WF S8x2048x4096 S4096x4096 S8x2048x4096 [2] [1] [0, 1] [0] [] []

variable [Facts₀]

def scatter_S4096x4096_S1677722x2_S1677722_n_01_01_1 : ScatterDims S4096x4096 S1677722x2 S1677722 where
  updateWindowDims := []
  insertedWindowDims := [0, 1]
  scatterDimsToOperandDims := [0, 1]
  indexVectorDim := 1
  wf := scatter_S4096x4096_S1677722x2_S1677722_n_01_01_1_wf
def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.Tile.lean ====
/-
  One grid point's arithmetic. The body loads a tile `w` of 256 weight rows (all 4096 columns), a tile `x` of 512
  activation rows of one batch entry (all 4096 columns) and the 512 bias entries `β` of those activation rows, and stores

      tile[p, q] = Σ_k w[p, k] · x[q, k] + β[q]        (p < 256, q < 512, k < 4096).

  Over the extended reals the narrowing of both operands to sixteen-bit floats is the identity and the matrix unit's
  product into a zero accumulator is the plain sum of products; the rest is re-laying: a leading unit axis dropped from the
  activation tile and from the bias, the bias row repeated down the 256 rows, a leading unit axis put on the result.
-/
import proofs.«132155_j14903536517962_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- The matrix product's dimension record: both operands contract their column axis. -/
abbrev D := dot_S256x4096_S512x4096_S256x512_1_1_0_0_n_n

/-! ## Which entries the product reads: row `p` of the left operand, row `q` of the right, the same column of both -/

theorem lhs_row (j : S256x512.Idx) (c : D.contr.Idx) : (D.lhsIdx j c 0).val = (j 0).val := by
  unfold DotDims.lhsIdx
  rw [dif_neg (show ¬(0 : Fin S256x4096.rank) ∈ dot_S256x4096_S512x4096_S256x512_1_1_0_0_n_n.lhsBatch by decide), dif_pos (show (0 : Fin S256x4096.rank) ∈ dot_S256x4096_S512x4096_S256x512_1_1_0_0_n_n.lhsNonContracting by decide)]
  rfl
theorem lhs_col (j : S256x512.Idx) (c : D.contr.Idx) : (D.lhsIdx j c 1).val = (c ⟨0, by decide⟩).val :=
  dot_S256x4096_S512x4096_S256x512_1_1_0_0_n_n.lhsIdx_val_of_single rfl j c
theorem rhs_row (j : S256x512.Idx) (c : D.contr.Idx) : (D.rhsIdx j c 0).val = (j 1).val := by
  unfold DotDims.rhsIdx
  rw [dif_neg (show ¬(0 : Fin S512x4096.rank) ∈ dot_S256x4096_S512x4096_S256x512_1_1_0_0_n_n.rhsBatch by decide), dif_pos (show (0 : Fin S512x4096.rank) ∈ dot_S256x4096_S512x4096_S256x512_1_1_0_0_n_n.rhsNonContracting by decide)]
  rfl
theorem rhs_col (j : S256x512.Idx) (c : D.contr.Idx) : (D.rhsIdx j c 1).val = (c ⟨0, by decide⟩).val :=
  dot_S256x4096_S512x4096_S256x512_1_1_0_0_n_n.rhsIdx_val_of_single rfl j c

/-- The product into a zero accumulator, at entry `(p, q)`: rows `p` and `q` multiplied column by column and summed. -/
theorem product_apply {φ₁ φ₂ : FTy} (a : FVec Ideal S256x4096 φ₁) (b : FVec Ideal S512x4096 φ₂) (p : Fin 256) (q : Fin 512) :
    matmul D none a b (constant (F := Ideal) S256x512 .f32 0x00000000#32) (ix2 p q) = ∑ k : Fin 4096, a (ix2 p k) * b (ix2 q k) := by
  refine (Ideal.matmul_constant_zero_apply dot_S256x4096_S512x4096_S256x512_1_1_0_0_n_n none a b (ix2 p q)).trans ?_
  rw [← Equiv.sum_comp (contrEquiv1 dot_S256x4096_S512x4096_S256x512_1_1_0_0_n_n 4096 rfl rfl).symm]
  refine Finset.sum_congr rfl fun k _ => ?_
  have hk := contrEquiv1_symm_val dot_S256x4096_S512x4096_S256x512_1_1_0_0_n_n 4096 rfl rfl k
  have el : dot_S256x4096_S512x4096_S256x512_1_1_0_0_n_n.lhsIdx (ix2 p q) ((contrEquiv1 dot_S256x4096_S512x4096_S256x512_1_1_0_0_n_n 4096 rfl rfl).symm k) = ix2 p k := funext fun ax => Fin.ext (by
    match ax with
    | ⟨0, _⟩ => exact lhs_row _ _
    | ⟨1, _⟩ => exact (lhs_col _ _).trans hk)
  have er : dot_S256x4096_S512x4096_S256x512_1_1_0_0_n_n.rhsIdx (ix2 p q) ((contrEquiv1 dot_S256x4096_S512x4096_S256x512_1_1_0_0_n_n 4096 rfl rfl).symm k) = ix2 q k := funext fun ax => Fin.ext (by
    match ax with
    | ⟨0, _⟩ => exact rhs_row _ _
    | ⟨1, _⟩ => exact (rhs_col _ _).trans hk)
  rw [el, er]

/-- The bias row, stripped of its unit axis, given it back, and repeated down the rows, read at `(p, q)`: entry `q`. -/
theorem bias_apply (β : Vec Ideal S1x512 .f32) (h1 : S1x512.ShapeCasts S512) (h2 : S512.ShapeCasts S1x512)
    (h3 : S1x512.ShapeCasts S1x512) (h4 : S1x512.Broadcasts S256x512) (p : Fin 256) (q : Fin 512) :
    broadcastTo S256x512 (shapeCast S1x512 (shapeCast S1x512 (shapeCast S512 β h1) h2) h3) h4 (ix2 p q) = β (ix2 (0 : Fin 1) q) := by
  rw [broadcastTo_1b_ab_apply, shapeCast_self, shapeCast_a_1a_apply, shapeCast_1a_a_apply]

/-- THE TILE: what the body stores, at entry `(p, q)` of its block (the leading unit coordinate is `u`). -/
theorem pay_apply (w : Vec Ideal S256x4096 .f32) (x : Vec Ideal S1x512x4096 .f32) (β : Vec Ideal S1x512 .f32)
    (u : Fin 1) (p : Fin 256) (q : Fin 512) :
    k0_pay1 (F := Ideal) w x β (ix3 u p q) = (∑ k : Fin 4096, w (ix2 p k) * x (ix3 (0 : Fin 1) q k)) + β (ix2 (0 : Fin 1) q) := by
  unfold k0_pay1
  rw [shapeCast_ab_1ab_apply]
  show FloatOps.addf (matmul D none _ _ (constant (F := Ideal) S256x512 .f32 0x00000000#32) (ix2 p q)) (broadcastTo S256x512 _ _ (ix2 p q)) = _
  rw [product_apply, bias_apply]
  show (∑ k : Fin 4096, (shapeCast S256x4096 w _) (ix2 p k) * (shapeCast S512x4096 x _) (ix2 q k)) + _ = _
  rw [shapeCast_self]
  simp only [shapeCast_1ab_ab_apply]

end Cert.KernelIdeal.Tile

end
-- ==== Proof.Affine.lean ====
/-
  The function both programs compute. A weight matrix `W` of 4096 rows and 4096 columns meets a batch of eight
  activation matrices `X[b]`, each of 2048 rows and 4096 columns, and a bias vector `B` of 2048 entries:

      out[b, r, s] = Σ_k X[b, s, k] · W[r, k] + B[s]        (k over the 4096 columns)

  over the extended reals. Nothing here knows how `W` is built from the sparse triples: both programs build it by the
  same scatter-add, so it is carried as one array.
-/
import Idealize.ShloMosaic.PureOps.Ideal
import Idealize.ShloMosaic.Lib.ValueIdx

noncomputable section

namespace Cert.Affine

open Idealize.ShloMosaic Idealize.ShloMosaic.ValueIdx

/-- Row `r` of the weights against row `s` of activation matrix `b`, summed over the shared column index, plus the
    bias of `s`. The product is written activation first; on the extended reals the order of the two factors does not
    matter (multiplication is commutative there, infinities included), which is all that `sum_swap` below says. -/
def out (X : FVec Ideal ⟨3, ![8, 2048, 4096]⟩ .f32) (W : FVec Ideal ⟨2, ![4096, 4096]⟩ .f32)
    (B : FVec Ideal ⟨1, ![2048]⟩ .f32) : FVec Ideal ⟨3, ![8, 4096, 2048]⟩ .f32 :=
  fun i => (∑ k : Fin 4096, X (ix3 (i 0) (i 2) k) * W (ix2 (i 1) k)) + B (ix1 (i 2))

theorem out_apply (X : FVec Ideal ⟨3, ![8, 2048, 4096]⟩ .f32) (W : FVec Ideal ⟨2, ![4096, 4096]⟩ .f32)
    (B : FVec Ideal ⟨1, ![2048]⟩ .f32) (b : Fin 8) (r : Fin 4096) (s : Fin 2048) :
    out X W B (ix3 b r s) = (∑ k : Fin 4096, X (ix3 b s k) * W (ix2 r k)) + B (ix1 s) := rfl

/-- A sum of products with the factors in the other order is the same sum. -/
theorem sum_swap {n : Nat} (f g : Fin n → EReal) : (∑ k : Fin n, f k * g k) = ∑ k : Fin n, g k * f k :=
  Finset.sum_congr rfl fun k _ => mul_comm (f k) (g k)

end Cert.Affine

end
-- ==== Proof.KernelArray.lean ====
/-
  From tiles to the array. The grid has 8 · 4 · 16 = 512 points; point t = (b, σ, μ) (batch entry, activation tile,
  weight tile; the weight tile moves fastest) loads weight rows 256μ … 256μ + 255, rows 512σ … 512σ + 511 of activation
  matrix b with their bias entries, and writes back the 256 × 512 tile of the result at (b, 256μ + p, 512σ + q). That tile
  is the corresponding tile of `Affine.out` of the activations, the weights as the host operations before the launch left
  them, and the bias; the 512 tiles fill the result array, so the array ends holding `Affine.out`.
-/
import proofs.«132155_j14903536517962_1_alg».proof.Proof.Gen.KernelIdeal.Value
import proofs.«132155_j14903536517962_1_alg».proof.Proof.Tile
import proofs.«132155_j14903536517962_1_alg».proof.Proof.Affine
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Hand

open Cert.KernelIdeal Cert.KernelIdeal.Gen Cert.KernelIdeal.Value
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The two arrays the host operations before the launch wrote -/

/-- The dense weights: the values scatter-added into a zero matrix at (row, column), a negative index first moved up by
    4096. One term of the value, row-index and column-index arrays; it is carried whole and never opened. -/
def weights (x1 : (⟨S1677722, .f32⟩ : BufTy).Contents (Elt Ideal)) (x3 x4 : (⟨S1677722, .i32⟩ : BufTy).Contents (Elt Ideal)) :
    (⟨S4096x4096, .f32⟩ : BufTy).Contents (Elt Ideal) :=
  Host.scatterAdd (F := Ideal) scatter_S4096x4096_S1677722x2_S1677722_n_01_01_1
    (broadcastInDim S4096x4096 ![] bcast_S_S4096x4096 (constant (F := Ideal) S_ .f32 0x00000000#32))
    (concatenate S1677722x2 1
      [⟨S1677722x1, (broadcastInDim S1677722x1 ![0] bcast_S1677722_S1677722x1_0 (select (cmpi .slt (x3) (broadcastInDim S1677722 ![] bcast_S_S1677722 (constantI S_ 32 0#32))) (addi (x3) (broadcastInDim S1677722 ![] bcast_S_S1677722 (constantI S_ 32 4096#32))) (x3)))⟩,
       ⟨S1677722x1, (broadcastInDim S1677722x1 ![0] bcast_S1677722_S1677722x1_0 (select (cmpi .slt (x4) (broadcastInDim S1677722 ![] bcast_S_S1677722 (constantI S_ 32 0#32))) (addi (x4) (broadcastInDim S1677722 ![] bcast_S_S1677722 (constantI S_ 32 4096#32))) (x4)))⟩]
      concatenates_S1677722x1_S1677722x1_S1677722x2_d1)
    (x1)

/-- Rewrites a buffer's contents after a literal list of host operations, one operation at a time: at its own result
    buffer an operation leaves its function's value, at any other buffer what was there. Plain rewriting, with no
    attempt to close the goal on the way: the scatter-add must never be unfolded, and any comparison of two different
    spellings of it would unfold it over its 1,677,722 updates. -/
macro "host_results" : tactic =>
  `(tactic| (simp only [after_cons, after_nil]
             repeat (first
               | rewrite [nullary_result] | rewrite [unary_result] | rewrite [binary_result] | rewrite [ternary_result]
               | rewrite [reshape_result]
               | (rewrite [nullary_result_ne]; rotate_left; decide)
               | (rewrite [unary_result_ne]; rotate_left; decide)
               | (rewrite [binary_result_ne]; rotate_left; decide)
               | (rewrite [ternary_result_ne]; rotate_left; decide)
               | (rewrite [reshape_result_ne]; rotate_left; decide))))

/-- What the launch finds in the weight array: `weights` of the three argument arrays, letter for letter. -/
theorem weights_raw (c : Dev nD) : (V m c main_v14 : S4096x4096.Idx → EReal)
    = weights (m (c, Proc.tc.devRef main_arg1)) (m (c, Proc.tc.devRef main_arg3)) (m (c, Proc.tc.devRef main_arg4)) := by
  dsimp only [Gen.V, Gen.hostOps0]
  host_results
  unfold weights
  rfl

/-- The same, with each argument array named as the claims name it. -/
theorem weights_eq (c : Dev nD) : (V m c main_v14 : S4096x4096.Idx → EReal)
    = weights (m ((c : Thread nD τ).loc main_arg1)) (m ((c : Thread nD τ).loc main_arg3)) (m ((c : Thread nD τ).loc main_arg4)) :=
  weights_raw m c

/-- What the launch finds in the bias row: the bias vector with a leading unit axis. -/
theorem bias_row_eq (c : Dev nD) : (V m c main_v15 : S1x2048.Idx → EReal)
    = shapeCast S1x2048 (m ((c : Thread nD τ).loc main_arg2) : S2048.Idx → EReal) shapeCasts_S2048_S1x2048 := by
  dsimp only [Gen.V, Gen.hostOps0]
  after_results
  rfl

/-! ## One tile of the result -/

/-- A tile the body stores is a tile of `Affine.out`: if the loaded weight tile is rows `256μ + p` of `W`, the loaded
    activation tile rows `512σ + q` of `X[β]`, the loaded bias entries `512σ + q` of `B`, then the stored entry
    `(·, p, q)` is `Affine.out X W B` at `(β, 256μ + p, 512σ + q)`. The body multiplies weight by activation, the
    specification activation by weight: the products are equal. -/
theorem tile_eq (X : FVec Ideal S8x2048x4096 .f32) (W : FVec Ideal S4096x4096 .f32) (B : FVec Ideal S2048 .f32)
    (w : Vec Ideal S256x4096 .f32) (x : Vec Ideal S1x512x4096 .f32) (bv : Vec Ideal S1x512 .f32) (β μ σ : Nat)
    (hw : ∀ (p : Fin 256) (k : Fin 4096) (r : Fin 4096), r.val = μ * 256 + p.val → w (ix2 p k) = W (ix2 r k))
    (hx : ∀ (q : Fin 512) (k : Fin 4096) (b : Fin 8) (s : Fin 2048), b.val = β → s.val = σ * 512 + q.val →
      x (ix3 (0 : Fin 1) q k) = X (ix3 b s k))
    (hb : ∀ (q : Fin 512) (s : Fin 2048), s.val = σ * 512 + q.val → bv (ix2 (0 : Fin 1) q) = B (ix1 s))
    (j : S1x256x512.Idx) (i : S8x4096x2048.Idx)
    (h0 : (i 0).val = β) (h1 : (i 1).val = μ * 256 + (j 1).val) (h2 : (i 2).val = σ * 512 + (j 2).val) :
    k0_pay1 (F := Ideal) w x bv j = Cert.Affine.out X W B i := by
  obtain ⟨u, p, q, rfl⟩ : ∃ (u : Fin 1) (p : Fin 256) (q : Fin 512), j = ix3 u p q := ⟨j 0, j 1, j 2, eq_ix3 j⟩
  obtain ⟨b, r, s, rfl⟩ : ∃ (b : Fin 8) (r : Fin 4096) (s : Fin 2048), i = ix3 b r s := ⟨i 0, i 1, i 2, eq_ix3 i⟩
  rw [Cert.KernelIdeal.Tile.pay_apply, Cert.Affine.out_apply, hb q s h2]
  congr 1
  refine Finset.sum_congr rfl fun k _ => ?_
  rw [hw p k r h1, hx q k b s h0 h2, mul_comm]

/-! ## Where each window's block sits, at every grid point -/

theorem hz2 : (![0, 0] : Fin 2 → Nat) = fun _ => 0 := funext fun a => by fin_cases a <;> rfl
theorem hz3 : (![0, 0, 0] : Fin 3 → Nat) = fun _ => 0 := funext fun a => by fin_cases a <;> rfl

/-- Point `t` is (batch entry `t / 64`, activation tile `t / 16 mod 4`, weight tile `t mod 16`): the block index of every
    window on every axis, decided over the 512 points. -/
theorem idx_facts : ∀ t : Fin cfg0.N,
    win0_3.index t (0 : Fin 3) = t.val / 64 ∧ win0_3.index t (1 : Fin 3) = t.val % 16 ∧ win0_3.index t (2 : Fin 3) = t.val / 16 % 4
    ∧ win0_0.index t (0 : Fin 2) = t.val % 16 ∧ win0_0.index t (1 : Fin 2) = 0
    ∧ win0_1.index t (0 : Fin 3) = t.val / 64 ∧ win0_1.index t (1 : Fin 3) = t.val / 16 % 4 ∧ win0_1.index t (2 : Fin 3) = 0
    ∧ win0_2.index t (0 : Fin 2) = 0 ∧ win0_2.index t (1 : Fin 2) = t.val / 16 % 4 :=
  (by decide +kernel : ∀ t : Fin grid0.N, _)

/-! ## Each input block read at an entry

  The arrays are taken as the launch finds them; the weight array is ANY array `W` the launch finds there (`hW`), so that
  nothing below ever looks inside it. -/

/-- The weight block of point `t`: rows `256 · (t mod 16) + p` of the weights. The hypothesis names the weight array by the
    very term the block is read from, so that it is replaced by `W` before anything is compared. -/
theorem wblk_apply (c : Dev nD) (t : Fin cfg0.N) (W : S4096x4096.Idx → EReal)
    (hW : (V m c (Pipeline.arrRef spec0 0) : S4096x4096.Idx → EReal) = W)
    (p : Fin 256) (k : Fin 4096) (r : Fin 4096) (hr : r.val = t.val % 16 * 256 + p.val) :
    (iblk m c 0 t : Vec Ideal S256x4096 .f32) (ix2 p k) = W (ix2 r k) := by
  obtain ⟨-, -, -, e00, e01, -⟩ := idx_facts t
  unfold iblk
  rw [hW, View.read_apply]
  show W _ = W _
  congr 1
  funext a; apply Fin.ext
  match a with
  | ⟨0, _⟩ => show win0_0.index t (0 : Fin 2) * 256 + 1 * p.val = r.val; omega
  | ⟨1, _⟩ => show win0_0.index t (1 : Fin 2) * 4096 + 1 * k.val = k.val; omega

/-- The weight array under the name the first window reads it by. -/
theorem weights_at_window (c : Dev nD) : (V m c (Pipeline.arrRef spec0 0) : S4096x4096.Idx → EReal)
    = weights (m ((c : Thread nD τ).loc main_arg1)) (m ((c : Thread nD τ).loc main_arg3)) (m ((c : Thread nD τ).loc main_arg4)) :=
  weights_eq m c

/-- The activation block of point `t`: rows `512 · (t / 16 mod 4) + q` of activation matrix `t / 64`. -/
theorem xblk_apply (c : Dev nD) (t : Fin cfg0.N) (q : Fin 512) (k : Fin 4096) (b : Fin 8) (s : Fin 2048)
    (hb : b.val = t.val / 64) (hs : s.val = t.val / 16 % 4 * 512 + q.val) :
    (iblk m c 1 t : Vec Ideal S1x512x4096 .f32) (ix3 (0 : Fin 1) q k)
      = (m ((c : Thread nD τ).loc main_arg0) : S8x2048x4096.Idx → EReal) (ix3 b s k) := by
  obtain ⟨-, -, -, -, -, e10, e11, e12, -⟩ := idx_facts t
  unfold iblk
  rw [View.read_apply]
  show V m c main_arg0 _ = m ((c : Thread nD τ).loc main_arg0) _
  rw [V_main_arg0 m c]
  congr 1
  funext a; apply Fin.ext
  match a with
  | ⟨0, _⟩ => show win0_1.index t (0 : Fin 3) * 1 + 1 * 0 = b.val; omega
  | ⟨1, _⟩ => show win0_1.index t (1 : Fin 3) * 512 + 1 * q.val = s.val; omega
  | ⟨2, _⟩ => show win0_1.index t (2 : Fin 3) * 4096 + 1 * k.val = k.val; omega

/-- The bias block of point `t`: entries `512 · (t / 16 mod 4) + q` of the bias. -/
theorem bblk_apply (c : Dev nD) (t : Fin cfg0.N) (q : Fin 512) (s : Fin 2048) (hs : s.val = t.val / 16 % 4 * 512 + q.val) :
    (iblk m c 2 t : Vec Ideal S1x512 .f32) (ix2 (0 : Fin 1) q)
      = (m ((c : Thread nD τ).loc main_arg2) : S2048.Idx → EReal) (ix1 s) := by
  obtain ⟨-, -, -, -, -, -, -, -, e20, e21⟩ := idx_facts t
  unfold iblk
  rw [View.read_apply]
  show V m c main_v15 _ = m ((c : Thread nD τ).loc main_arg2) _
  rw [bias_row_eq m c]
  have e : ((cfg0.win 2).blk t).view.emb (ix2 (0 : Fin 1) q) = ix2 (0 : Fin 1) s := by
    funext a; apply Fin.ext
    match a with
    | ⟨0, _⟩ => show win0_2.index t (0 : Fin 2) * 1 + 1 * 0 = 0; omega
    | ⟨1, _⟩ => show win0_2.index t (1 : Fin 2) * 512 + 1 * q.val = s.val; omega
  rw [e, shapeCast_a_1a_apply]

/-! ## The result array -/

/-- What the result array ends holding on core `c`, for the weight array `W` the launch finds. -/
abbrev resultOf (c : Dev nD) (W : S4096x4096.Idx → EReal) : Buf (Elt Ideal) ((c : Thread nD τ).loc main_v16) :=
  Cert.Affine.out (m ((c : Thread nD τ).loc main_arg0)) W (m ((c : Thread nD τ).loc main_arg2))

/-- WHAT POINT `t` WRITES BACK is its tile of `resultOf`. The staged block is read through the same coordinates it was
    stored with; the block of the result array at point (b, σ, μ) starts at (b, 256μ, 512σ). -/
theorem flushed_of (c : Dev nD) (t : Fin cfg0.N) (W : S4096x4096.Idx → EReal)
    (hW : (V m c (Pipeline.arrRef spec0 0) : S4096x4096.Idx → EReal) = W) :
    (dats m 0 c).flushed 3 t = ((cfg0.win 3).blk t).view.read (Elt Ideal) (resultOf m c W) := by
  rw [Value.flushed3]
  unfold out0_3
  rw [View.canon_unit_zero hz3]
  simp only [View.ld_unit_zero (S := S256x4096) hz2, View.ld_unit_zero (S := S1x512x4096) hz3, View.ld_unit_zero (S := S1x512) hz2]
  obtain ⟨e30, e31, e32, -⟩ := idx_facts t
  funext j
  refine tile_eq (m ((c : Thread nD τ).loc main_arg0)) W (m ((c : Thread nD τ).loc main_arg2))
    (iblk m c 0 t) (iblk m c 1 t) (iblk m c 2 t) (t.val / 64) (t.val % 16) (t.val / 16 % 4)
    (fun p k r hr => wblk_apply m c t W hW p k r hr) (fun q k b s hb hs => xblk_apply m c t q k b s hb hs)
    (fun q s hs => bblk_apply m c t q s hs)
    ((cfg0.win 3).xinj (grid0.coords t) j) (((cfg0.win 3).blk t).view.emb j) ?_ ?_ ?_
  · show win0_3.index t (0 : Fin 3) * 1 + 1 * (j 0).val = t.val / 64
    have hj : (j 0).val < 1 := (j 0).isLt
    omega
  · show win0_3.index t (1 : Fin 3) * 256 + 1 * (j 1).val = t.val % 16 * 256 + (j 1).val
    omega
  · show win0_3.index t (2 : Fin 3) * 512 + 1 * (j 2).val = t.val / 16 % 4 * 512 + (j 2).val
    omega

/-- An index of the result array is in point `t`'s block iff each coordinate is in the block's range on its axis. -/
theorem mem_blk (t : Fin cfg0.N) (i : S8x4096x2048.Idx) :
    i ∈ ((cfg0.win 3).blk t).view.set ↔ ∀ a : Fin 3, win0_3.index t a * S1x256x512.size a ≤ (i a).val ∧ (i a).val < win0_3.index t a * S1x256x512.size a + S1x256x512.size a := by
  show i ∈ ((View.whole main_v16).slice (win0_3.rect t)).set ↔ _
  rw [View.set_slice_whole, Rect.mem_set_unit]
  exact Iff.rfl

/-- The 512 tiles fill the array: entry (b, r, s) lies in the block of point (b, s / 512, r / 256). -/
theorem covered (i : S8x4096x2048.Idx) : ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 2048 := (i 2).isLt
  have hN : cfg0.N = 512 := N_0
  obtain ⟨t, ht⟩ : ∃ t : Fin cfg0.N, t.val = (i 0).val * 64 + (i 2).val / 512 * 16 + (i 1).val / 256 :=
    ⟨⟨(i 0).val * 64 + (i 2).val / 512 * 16 + (i 1).val / 256, by rw [hN]; omega⟩, rfl⟩
  obtain ⟨e30, e31, e32, -⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 512 ≤ (i 2).val ∧ (i 2).val < win0_3.index t (2 : Fin 3) * 512 + 512; omega

/-- THE ARRAY after the run, for the weight array `W` the launch finds. -/
theorem final_of (c : Dev nD) (W : S4096x4096.Idx → EReal) (hW : (V m c (Pipeline.arrRef spec0 0) : S4096x4096.Idx → EReal) = W) :
    (dats m 0 c).arrAt 3 cfg0.N = resultOf m c W :=
  (dats m 0 c).arrAt_eq_of_cover 3 (resultOf m c W) (fun t _ => flushed_of m c t W hW) covered

/-- What the result array ends holding on core `c`: the affine map of the activations, the scatter-added weights and the bias. -/
abbrev result (c : Dev nD) : Buf (Elt Ideal) ((c : Thread nD τ).loc main_v16) :=
  resultOf m c (weights (m ((c : Thread nD τ).loc main_arg1)) (m ((c : Thread nD τ).loc main_arg3)) (m ((c : Thread nD τ).loc main_arg4)))

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_of m c _ (weights_at_window m c)), (h c).2⟩) (Value.run_blocks m ρ)

end Cert.KernelIdeal.Hand

end
-- ==== Proof.RefValue.lean ====
/-
  The reference's result, stage by stage, is `Affine.out`: the host's `dot_general` contracts the activations' column
  axis with the weights' column axis and lays the result out as (batch, activation row, weight row); the transpose swaps
  the last two axes; the bias, broadcast along its own axis, is added. Read at (b, r, s) that is
  Σ_k X[b, s, k] · W[r, k] + B[s], with `W` the reference's own scatter-add stage, which is not opened.
-/
import proofs.«132155_j14903536517962_1_alg».proof.Proof.Gen.ReferenceIdeal.Read
import proofs.«132155_j14903536517962_1_alg».proof.Proof.Affine

noncomputable section

namespace Cert.ReferenceIdeal.RefValue

open Cert.ReferenceIdeal Cert.ReferenceIdeal.Gen Cert.ReferenceIdeal.Read Idealize.ShloMosaic Idealize.ShloMosaic.ValueIdx

/-- The last stage of the reference is the affine map of the activations, the scatter-add stage and the bias. -/
theorem result_eq (x0 : (⟨S8x2048x4096, .f32⟩ : BufTy).Contents (Elt Ideal)) (x1 : (⟨S1677722, .f32⟩ : BufTy).Contents (Elt Ideal))
    (x2 : (⟨S2048, .f32⟩ : BufTy).Contents (Elt Ideal)) (x3 x4 : (⟨S1677722, .i32⟩ : BufTy).Contents (Elt Ideal)) :
    val_main_v19 (F := Ideal) x0 x1 x2 x3 x4 = Cert.Affine.out x0 (val_main_v14 (F := Ideal) x1 x3 x4) x2 := by
  funext i
  obtain ⟨b, r, s, rfl⟩ : ∃ (b : Fin 8) (r : Fin 4096) (s : Fin 2048), i = ix3 b r s := ⟨i 0, i 1, i 2, eq_ix3 i⟩
  have e1 : ∀ k : Fin 4096, lidx_main_v15 (idx_main_v16 (ix3 b r s)) k = ix3 b s k := fun k => funext fun a => Fin.ext (by
    match a with
    | ⟨0, _⟩ => rfl
    | ⟨1, _⟩ => rfl
    | ⟨2, _⟩ => rfl)
  have e2 : ∀ k : Fin 4096, ridx_main_v15 (idx_main_v16 (ix3 b r s)) k = ix2 r k := fun k => funext fun a => Fin.ext (by
    match a with
    | ⟨0, _⟩ => rfl
    | ⟨1, _⟩ => rfl)
  have e3 : idx_main_v17 (idx_main_v18 (ix3 b r s)) = ix1 s := funext fun a => Fin.ext (by
    match a with
    | ⟨0, _⟩ => rfl)
  rw [val_main_v19_apply, val_main_v16_apply, val_main_v15_apply, val_main_v18_apply, val_main_v17_apply, Cert.Affine.out_apply]
  simp only [e1, e2, e3]
  rfl

end Cert.ReferenceIdeal.RefValue

end
-- ==== Proof.SameWeights.lean ====
/-
  Both programs build the dense weight matrix by the same host operations from the same three arrays: the value, row
  and column arrays. Each side's term is spelt with its own program's names for the shapes and for the scatter's
  dimension record, which denote the same things; the three operands of the scatter-add are shown equal one at a time
  and the two scatter-adds are then the same term. The scatter-add itself is never opened.
-/
import proofs.«132155_j14903536517962_1_alg».proof.Proof.KernelArray
import proofs.«132155_j14903536517962_1_alg».proof.Proof.RefValue

noncomputable section

namespace Cert.SameWeights

open Idealize.ShloMosaic

/-- A scatter-add of equal operands under equal dimension records is the same array. -/
theorem scatterAdd_congr {s si su : Shape} {d d' : ScatterDims s si su} {A A' : FVec Ideal s .f32} {B B' : IVec si 32}
    (u : FVec Ideal su .f32) (hd : d = d') (hA : A = A') (hB : B = B') :
    Host.scatterAdd (F := Ideal) d A B u = Host.scatterAdd (F := Ideal) d' A' B' u := by
  subst hd hA hB
  rfl

/-- The two programs' dimension records of the scatter are one record. -/
theorem dims_eq : Cert.ReferenceIdeal.scatter_S4096x4096_S1677722x2_S1677722_n_01_01_1
    = Cert.KernelIdeal.scatter_S4096x4096_S1677722x2_S1677722_n_01_01_1 := rfl

/-- The reference's scatter-add stage is the array the kernel's launch finds. -/
theorem weights_same (x1 : (⟨Cert.KernelIdeal.S1677722, .f32⟩ : BufTy).Contents (Elt Ideal))
    (x3 x4 : (⟨Cert.KernelIdeal.S1677722, .i32⟩ : BufTy).Contents (Elt Ideal)) :
    Cert.ReferenceIdeal.Read.val_main_v14 (F := Ideal) x1 x3 x4 = Cert.KernelIdeal.Hand.weights x1 x3 x4 := by
  unfold Cert.ReferenceIdeal.Read.val_main_v14 Cert.KernelIdeal.Hand.weights
  exact scatterAdd_congr x1 dims_eq rfl rfl

end Cert.SameWeights

end
-- ==== Proof.lean ====
/-
  The certificate of a sparse linear layer. Both programs first build a dense 4096 × 4096 weight matrix `W` by
  scatter-adding the values at (row, column) into zeros, by the very same host operations. The kernel then computes, tile
  by tile on an 8 × 4 × 16 grid, out[b, r, s] = Σ_k W[r, k] · x[b, s, k] + bias[s] with both operands narrowed to
  sixteen-bit floats and the sum taken by the matrix unit into a zero accumulator; the reference contracts x with W on the
  host, swaps the last two axes and adds the bias. Over the extended reals the narrowing is the identity and the products
  commute, so both results are `Affine.out x W bias` (Proof/Affine.lean), entry by entry: Proof/Tile.lean reads one stored
  tile, Proof/KernelArray.lean lays the 512 tiles over the result array, Proof/RefValue.lean reads the reference's stages,
  Proof/SameWeights.lean says the two weight matrices are one array. No entry needs to be finite: the precondition is not
  opened. The three frames are the generated ones; the kernel is its own idealization (no rewrite was applied).
-/
import proofs.«132155_j14903536517962_1_alg».proof.Defs
import proofs.«132155_j14903536517962_1_alg».proof.Proof.Gen.Kernel
import proofs.«132155_j14903536517962_1_alg».proof.Proof.Gen.Kernel.Skeleton
import proofs.«132155_j14903536517962_1_alg».proof.Proof.Gen.Kernel.Launch
import proofs.«132155_j14903536517962_1_alg».proof.Proof.Gen.Kernel.Points
import proofs.«132155_j14903536517962_1_alg».proof.Proof.Gen.Kernel.Frame
import proofs.«132155_j14903536517962_1_alg».proof.Proof.Gen.KernelIdeal
import proofs.«132155_j14903536517962_1_alg».proof.Proof.Gen.KernelIdeal.Skeleton
import proofs.«132155_j14903536517962_1_alg».proof.Proof.Gen.KernelIdeal.Launch
import proofs.«132155_j14903536517962_1_alg».proof.Proof.Gen.KernelIdeal.Points
import proofs.«132155_j14903536517962_1_alg».proof.Proof.Gen.KernelIdeal.Frame
import proofs.«132155_j14903536517962_1_alg».proof.Proof.Gen.ReferenceIdeal
import proofs.«132155_j14903536517962_1_alg».proof.Proof.Gen.Pre_finite_inputs
import proofs.«132155_j14903536517962_1_alg».proof.Proof.Gen.KernelIdeal.Value
import proofs.«132155_j14903536517962_1_alg».proof.Proof.Gen.ReferenceIdeal.Run
import proofs.«132155_j14903536517962_1_alg».proof.Proof.Gen.ReferenceIdeal.Read
import proofs.«132155_j14903536517962_1_alg».proof.Proof.KernelArray
import proofs.«132155_j14903536517962_1_alg».proof.Proof.RefValue
import proofs.«132155_j14903536517962_1_alg».proof.Proof.SameWeights
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the result array at `Affine.out` of the activations, the
    scatter-added weights and the bias. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v19_eq, Cert.ReferenceIdeal.RefValue.result_eq, a0, a1, a2, a3, a4,
    Cert.SameWeights.weights_same]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
